-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x512 : Shape := ⟨2, ![4096, 512]⟩
abbrev S262144x1 : Shape := ⟨2, ![262144, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x512 32) (main_arg2 : FVec F S262144x1 .f32) (main_arg3 : FVec F S262144x1 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S262144x1 .f32 := Host.absf main_arg2
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S262144x1 .f32 := Host.absf main_arg3
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x512 : Shape := ⟨2, ![4096, 512]⟩
abbrev S262144x1 : Shape := ⟨2, ![262144, 1]⟩
abbrev S4096 : Shape := ⟨1, ![4096]⟩
abbrev S4096x64 : Shape := ⟨2, ![4096, 64]⟩
abbrev S4096x4x16 : Shape := ⟨3, ![4096, 4, 16]⟩
abbrev S4x4096x16 : Shape := ⟨3, ![4, 4096, 16]⟩
abbrev S1x4096 : Shape := ⟨2, ![1, 4096]⟩
abbrev S8192x4x128x8 : Shape := ⟨4, ![8192, 4, 128, 8]⟩
abbrev S8192x4x8x128 : Shape := ⟨4, ![8192, 4, 8, 128]⟩
abbrev S512x4096 : Shape := ⟨2, ![512, 4096]⟩
abbrev S256x512 : Shape := ⟨2, ![256, 512]⟩
abbrev S4x256x16 : Shape := ⟨3, ![4, 256, 16]⟩
abbrev S1x256 : Shape := ⟨2, ![1, 256]⟩
abbrev S512x256 : Shape := ⟨2, ![512, 256]⟩
abbrev S512x1024 : Shape := ⟨2, ![512, 1024]⟩
abbrev S256x128 : Shape := ⟨2, ![256, 128]⟩
abbrev S256x1x128 : Shape := ⟨3, ![256, 1, 128]⟩
abbrev S256x8x128 : Shape := ⟨3, ![256, 8, 128]⟩
abbrev S256x1024 : Shape := ⟨2, ![256, 1024]⟩
abbrev S1x256x16 : Shape := ⟨3, ![1, 256, 16]⟩
abbrev S256x16 : Shape := ⟨2, ![256, 16]⟩
abbrev S256x16x1 : Shape := ⟨3, ![256, 16, 1]⟩
abbrev S256x16x8 : Shape := ⟨3, ![256, 16, 8]⟩

abbrev nBuf : Space → Nat
  | .hbm => 17
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x512, .i32⟩
  | .hbm, ⟨2, _⟩ => ⟨S262144x1, .f32⟩
  | .hbm, ⟨3, _⟩ => ⟨S262144x1, .f32⟩
  | .hbm, ⟨4, _⟩ => ⟨S4096, .f32⟩
  | .hbm, ⟨5, _⟩ => ⟨S4096x64, .f32⟩
  | .hbm, ⟨6, _⟩ => ⟨S4096x64, .f32⟩
  | .hbm, ⟨7, _⟩ => ⟨S4096x4x16, .f32⟩
  | .hbm, ⟨8, _⟩ => ⟨S4x4096x16, .f32⟩
  | .hbm, ⟨9, _⟩ => ⟨S4096x4x16, .f32⟩
  | .hbm, ⟨10, _⟩ => ⟨S4x4096x16, .f32⟩
  | .hbm, ⟨11, _⟩ => ⟨S1x4096, .f32⟩
  | .hbm, ⟨12, _⟩ => ⟨S8192x4096, .bf16⟩
  | .hbm, ⟨13, _⟩ => ⟨S8192x4x128x8, .bf16⟩
  | .hbm, ⟨14, _⟩ => ⟨S8192x4x8x128, .bf16⟩
  | .hbm, ⟨15, _⟩ => ⟨S8192x4096, .bf16⟩
  | .hbm, ⟨16, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S256x512, .i32⟩
  | .local _ .vmem, ⟨3, _⟩ => ⟨S256x512, .i32⟩
  | .local _ .vmem, ⟨4, _⟩ => ⟨S4x256x16, .f32⟩
  | .local _ .vmem, ⟨5, _⟩ => ⟨S4x256x16, .f32⟩
  | .local _ .vmem, ⟨6, _⟩ => ⟨S4x256x16, .f32⟩
  | .local _ .vmem, ⟨7, _⟩ => ⟨S4x256x16, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1024_i32 : BitVec 32 := 1024#32
  let v8 : BitVec 32 := Scalar.muli arg8 c1024_i32
  v8
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v10 : BitVec 32 := Scalar.muli arg8 c128_i32
  v10
def k0_off1 (k0_t1 : Fin k0_t1_loop.trips) : Fin 2 → Nat :=
  let c0_4 : Index := 0#32
  let c0_i32 : BitVec 32 := 0#32
  let c1_i32 : BitVec 32 := 1#32
  let arg8 : BitVec 32 := Scf.iv c0_i32 c1_i32 k0_t1
  let c1024_i32 : BitVec 32 := 1024#32
  let v8 : BitVec 32 := Scalar.muli arg8 c1024_i32
  let v9 : BitVec 32 := v8
  let v12 : Index := Scalar.indexCast v9
  ![0, v12.toNat]
def k0_off2 (k0_t1 : Fin k0_t1_loop.trips) : Fin 2 → Nat :=
  let c0_5 : Index := 0#32
  let c0_i32 : BitVec 32 := 0#32
  let c1_i32 : BitVec 32 := 1#32
  let arg8 : BitVec 32 := Scf.iv c0_i32 c1_i32 k0_t1
  let c128_i32 : BitVec 32 := 128#32
  let v10 : BitVec 32 := Scalar.muli arg8 c128_i32
  let v11 : BitVec 32 := v10
  let v15 : Index := Scalar.indexCast v11
  ![0, v15.toNat]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v26 : Index := Scalar.indexCast arg8
  let c0_7 : Index := 0#32
  let c0_8 : Index := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S262144x1_S4096x64 : S262144x1.ShapeCasts S4096x64
  shapeCasts_S4096x64_S4096x4x16 : S4096x64.ShapeCasts S4096x4x16
  transposes_S4096x4x16_S4x4096x16_1_0_2 : S4096x4x16.Transposes [1, 0, 2] S4x4096x16
  shapeCasts_S4096_S1x4096 : S4096.ShapeCasts S1x4096
  bitsLt_bf16_f32 : FTy.bits .bf16 < FTy.bits .f32
  shapeCasts_S8192x4096_S8192x4x128x8 : S8192x4096.ShapeCasts S8192x4x128x8
  transposes_S8192x4x128x8_S8192x4x8x128_0_1_3_2 : S8192x4x128x8.Transposes [0, 1, 3, 2] S8192x4x8x128
  shapeCasts_S8192x4x8x128_S8192x4096 : S8192x4x8x128.ShapeCasts S8192x4096
  h_S512x1024 : 0 < S512x1024.numel
  shapeCasts_S512x1024_S512x1024 : S512x1024.ShapeCasts S512x1024
  h_S256x128 : 0 < S256x128.numel
  shapeCasts_S256x128_S256x1x128 : S256x128.ShapeCasts S256x1x128
  shapeCasts_S256x1x128_S256x1x128 : S256x1x128.ShapeCasts S256x1x128
  broadcasts_S256x1x128_S256x8x128 : S256x1x128.Broadcasts S256x8x128
  iota_S256x8x128_d1_w32 : S256x8x128.Iotas .tc 32 [1]
  shapeCasts_S256x8x128_S256x1024 : S256x8x128.ShapeCasts S256x1024
  h_S1x256x16 : 0 < S1x256x16.numel
  shapeCasts_S1x256x16_S256x16 : S1x256x16.ShapeCasts S256x16
  shapeCasts_S256x16_S256x16x1 : S256x16.ShapeCasts S256x16x1
  shapeCasts_S256x16x1_S256x16x1 : S256x16x1.ShapeCasts S256x16x1
  broadcasts_S256x16x1_S256x16x8 : S256x16x1.Broadcasts S256x16x8
  shapeCasts_S256x16x8_S256x128 : S256x16x8.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x1024_S256x1024_S512x256_1_1_0_0_n_n_wf : DotDims.WF S512x1024 S256x1024 S512x256 [1] [1] [0] [0] [] []
  hrank0 : 0 < grid0.rank
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 128 ∣ (k0_mult2 k0_t1).toNat
  k0_off1_inb : ∀ k0_t1 : Fin k0_t1_loop.trips, ∀ a, (k0_off1 k0_t1) a + S512x1024.size a ≤ S512x4096.size a
  k0_off2_inb : ∀ k0_t1 : Fin k0_t1_loop.trips, ∀ a, (k0_off2 k0_t1) a + S256x128.size a ≤ S256x512.size a
  k0_off3_inb : ∀ k0_t1 : Fin k0_t1_loop.trips, ∀ a, (k0_off3 k0_t1) a + S1x256x16.size a ≤ S4x256x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x512.size a
  hwx0_1 : ∀ i : grid0.Coords, EltTy.bits .i32 = 32 ∨ (Rect.block (s := S4096x512) S256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x16.size a ≤ S4x4096x16.size a
  hwx0_2 : ∀ i : grid0.Coords, EltTy.bits .f32 = 32 ∨ (Rect.block (s := S4x4096x16) S4x256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x16.size a ≤ S4x4096x16.size a
  hwx0_3 : ∀ i : grid0.Coords, EltTy.bits .f32 = 32 ∨ (Rect.block (s := S4x4096x16) S4x256x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x4096.size a
  hwx0_5 : ∀ i : grid0.Coords, EltTy.bits .f32 = 32 ∨ (Rect.block (s := S8192x4096) S512x256.size (cc0_transform_5 i) (hinb0_5 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf

abbrev win0_0 : Pipeline.Window sig grid0 :=
  Pipeline.Window.ofSpec (Memref.whole main_v10) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x256x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x512 : Shape := ⟨2, ![4096, 512]⟩
abbrev S262144x1 : Shape := ⟨2, ![262144, 1]⟩
abbrev S4096 : Shape := ⟨1, ![4096]⟩
abbrev S4096x512x1 : Shape := ⟨3, ![4096, 512, 1]⟩
abbrev S8 : Shape := ⟨1, ![8]⟩
abbrev S1x1x8 : Shape := ⟨3, ![1, 1, 8]⟩
abbrev S4096x512x8 : Shape := ⟨3, ![4096, 512, 8]⟩
abbrev S_ : Shape := ⟨0, ![]⟩
abbrev S4096x4096 : Shape := ⟨2, ![4096, 4096]⟩
abbrev S262144x64 : Shape := ⟨2, ![262144, 64]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x512, .i32⟩
  | .hbm, ⟨2, _⟩ => ⟨S262144x1, .f32⟩
  | .hbm, ⟨3, _⟩ => ⟨S262144x1, .f32⟩
  | .hbm, ⟨4, _⟩ => ⟨S4096, .f32⟩
  | .hbm, ⟨5, _⟩ => ⟨S4096x512x1, .i32⟩
  | .hbm, ⟨6, _⟩ => ⟨S8, .i32⟩
  | .hbm, ⟨7, _⟩ => ⟨S1x1x8, .i32⟩
  | .hbm, ⟨8, _⟩ => ⟨S4096x512x8, .i32⟩
  | .hbm, ⟨9, _⟩ => ⟨S4096x512x8, .i32⟩
  | .hbm, ⟨10, _⟩ => ⟨S4096x512x8, .i32⟩
  | .hbm, ⟨11, _⟩ => ⟨S_, .i32⟩
  | .hbm, ⟨12, _⟩ => ⟨S4096x512x8, .i32⟩
  | .hbm, ⟨13, _⟩ => ⟨S4096x512x8, .i32⟩
  | .hbm, ⟨14, _⟩ => ⟨S4096x4096, .i32⟩
  | .hbm, ⟨15, _⟩ => ⟨S4096x4096, .f32⟩
  | .hbm, ⟨16, _⟩ => ⟨S262144x64, .f32⟩
  | .hbm, ⟨17, _⟩ => ⟨S262144x64, .f32⟩
  | .hbm, ⟨18, _⟩ => ⟨S262144x64, .f32⟩
  | .hbm, ⟨19, _⟩ => ⟨S262144x64, .f32⟩
  | .hbm, ⟨20, _⟩ => ⟨S262144x64, .f32⟩
  | .hbm, ⟨21, _⟩ => ⟨S4096x4096, .f32⟩
  | .hbm, ⟨22, _⟩ => ⟨S4096x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  shapeCasts_S4096x4096_S262144x64 : S4096x4096.ShapeCasts S262144x64
  bcast_S262144x1_S262144x64_0_1 : S262144x1.BroadcastsInDim S262144x64 (![0, 1] : Fin 2 → Fin S262144x64.rank)
  shapeCasts_S262144x64_S4096x4096 : S262144x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Body.lean ====
/-
  What the kernel's body leaves in its output block, as a pure term of the five input blocks.

  The body carries an accumulator through four trips of a counted loop.  Trip k loads columns [1024·k, 1024·k + 1024)
  of the x block, packed columns [128·k, 128·k + 128) of the weight block and plane k of the scale and zero blocks, and
  yields the accumulator plus one chunk product (`k0_pay2`).  After the loop the bias row is added (`k0_pay3`) and the
  sum stored over the whole output block.  So the block is
      k0_pay3 (step 3 (step 2 (step 1 (step 0 zero)))) bias
  where `step k acc` is `k0_pay2` of the accumulator and trip k's four loads.
-/
import proofs.«422245_j20504173871125_3_alg».proof.Proof.Gen.KernelIdeal.Frame
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- Trip k's slice of the x block: all 512 rows, columns 1024·k … 1024·k + 1023. -/
def xSlice (k : Fin k0_t1_loop.trips) (x0 : Vec F S512x4096 .bf16) : Vec F S512x1024 .bf16 :=
  View.ld x0 (Rect.unit (s := S512x4096) (k0_off1 k) S512x1024.size (Gen.k0_off1_inb k))

/-- Trip k's slice of the packed weight block: all 256 rows, packed columns 128·k … 128·k + 127. -/
def wSlice (k : Fin k0_t1_loop.trips) (x1 : Vec F S256x512 .i32) : Vec F S256x128 .i32 :=
  View.ld x1 (Rect.unit (s := S256x512) (k0_off2 k) S256x128.size (Gen.k0_off2_inb k))

/-- Plane k of a scale or zero block. -/
def gSlice (k : Fin k0_t1_loop.trips) (x : Vec F S4x256x16 .f32) : Vec F S1x256x16 .f32 :=
  View.ld x (Rect.unit (s := S4x256x16) (k0_off3 k) S1x256x16.size (Gen.k0_off3_inb k))

/-- One trip: the accumulator plus chunk k's product. -/
def step (k : Fin k0_t1_loop.trips) (x0 : Vec F S512x4096 .bf16) (x1 : Vec F S256x512 .i32) (x2 x3 : Vec F S4x256x16 .f32)
    (acc : FVec F S512x256 .f32) : FVec F S512x256 .f32 :=
  k0_pay2 acc (xSlice k x0) (wSlice k x1) (gSlice k x2) (gSlice k x3)

theorem trips_eq : k0_t1_loop.trips = 4 := by decide

theorem trip_lt (k : Fin k0_t1_loop.trips) : k.val < 4 := Nat.lt_of_lt_of_eq k.isLt trips_eq

/-- The generated trip, opened once: on whole memrefs holding the blocks it yields `step k`. -/
theorem tripR_eq (𝒱 : Variants) (c : Dev nD) (bd : Option 𝒱.V) (i : grid0.Coords) (arg2 : Memref sig .tc .vmem S512x4096 .bf16) (harg2 : arg2.IsWhole) (arg3 : Memref sig .tc .vmem S256x512 .i32) (harg3 : arg3.IsWhole) (arg4 : Memref sig .tc .vmem S4x256x16 .f32) (harg4 : arg4.IsWhole) (arg5 : Memref sig .tc .vmem S4x256x16 .f32) (harg5 : arg5.IsWhole) (arg6 : Memref sig .tc .vmem S1x256 .f32) (harg6 : arg6.IsWhole) (arg7 : Memref sig .tc .vmem S512x256 .f32) (harg7 : arg7.IsWhole)
    (x0 : Vec F S512x4096 .bf16) (x1 : Vec F S256x512 .i32) (x2 x3 : Vec F S4x256x16 .f32)
    (k : Fin k0_t1_loop.trips) (acc : FVec F S512x256 .f32) :
    tripR_k0_t1 (F := F) 𝒱 c bd i arg2 harg2 arg3 harg3 arg4 harg4 arg5 harg5 arg6 harg6 arg7 harg7 (harg2.unread x0) (harg3.unread x1) (harg4.unread x2) (harg5.unread x3) k acc
      = step k x0 x1 x2 x3 acc := by
  unfold tripR_k0_t1 trip_k0_t1
  dsimp only
  simp only [View.readAt_eq_ld, harg2.read_unread, harg3.read_unread, harg4.read_unread, harg5.read_unread]
  unfold step xSlice wSlice gSlice
  rfl

theorem hz2 : (![0, 0] : Fin 2 → Nat) = fun _ => 0 := funext fun a => by fin_cases a <;> rfl

/-- The generated whole-body run, opened once: the output block it leaves. -/
theorem out_eq (c : Dev nD) (i : grid0.Coords) (arg2 : Memref sig .tc .vmem S512x4096 .bf16) (harg2 : arg2.IsWhole) (arg3 : Memref sig .tc .vmem S256x512 .i32) (harg3 : arg3.IsWhole) (arg4 : Memref sig .tc .vmem S4x256x16 .f32) (harg4 : arg4.IsWhole) (arg5 : Memref sig .tc .vmem S4x256x16 .f32) (harg5 : arg5.IsWhole) (arg6 : Memref sig .tc .vmem S1x256 .f32) (harg6 : arg6.IsWhole) (arg7 : Memref sig .tc .vmem S512x256 .f32) (harg7 : arg7.IsWhole)
    (x0 : Vec F S512x4096 .bf16) (x1 : Vec F S256x512 .i32) (x2 x3 : Vec F S4x256x16 .f32) (x4 : Vec F S1x256 .f32) :
    out0_A_5 c i arg2 harg2 arg3 harg3 arg4 harg4 arg5 harg5 arg6 harg6 arg7 harg7 x0 x1 x2 x3 x4
      = k0_pay3 (step ⟨3, by decide⟩ x0 x1 x2 x3 (step ⟨2, by decide⟩ x0 x1 x2 x3 (step ⟨1, by decide⟩ x0 x1 x2 x3
          (step ⟨0, by decide⟩ x0 x1 x2 x3 (k0_pay1 (F := F)))))) x4 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_unit_zero hz2]
  simp only [View.readAt_eq_ld, harg6.read_unread, View.ld_unit_zero (S := S1x256) hz2]
  have e : Scf.trips (0#32) (Scalar.addi 0#32 4#32) 1#32 = 4 := by decide
  have h4 : st_k0_t1 (F := F) Variants.none c none i arg2 harg2 arg3 harg3 arg4 harg4 arg5 harg5 arg6 harg6 arg7 harg7 (harg2.unread x0) (harg3.unread x1) (harg4.unread x2) (harg5.unread x3) (k0_pay1 (F := F)) 4 = _ := st_k0_t1_succ (F := F) Variants.none c none i arg2 harg2 arg3 harg3 arg4 harg4 arg5 harg5 arg6 harg6 arg7 harg7 (harg2.unread x0) (harg3.unread x1) (harg4.unread x2) (harg5.unread x3) (k0_pay1 (F := F)) ⟨3, by decide⟩
  have h3 : st_k0_t1 (F := F) Variants.none c none i arg2 harg2 arg3 harg3 arg4 harg4 arg5 harg5 arg6 harg6 arg7 harg7 (harg2.unread x0) (harg3.unread x1) (harg4.unread x2) (harg5.unread x3) (k0_pay1 (F := F)) 3 = _ := st_k0_t1_succ (F := F) Variants.none c none i arg2 harg2 arg3 harg3 arg4 harg4 arg5 harg5 arg6 harg6 arg7 harg7 (harg2.unread x0) (harg3.unread x1) (harg4.unread x2) (harg5.unread x3) (k0_pay1 (F := F)) ⟨2, by decide⟩
  have h2 : st_k0_t1 (F := F) Variants.none c none i arg2 harg2 arg3 harg3 arg4 harg4 arg5 harg5 arg6 harg6 arg7 harg7 (harg2.unread x0) (harg3.unread x1) (harg4.unread x2) (harg5.unread x3) (k0_pay1 (F := F)) 2 = _ := st_k0_t1_succ (F := F) Variants.none c none i arg2 harg2 arg3 harg3 arg4 harg4 arg5 harg5 arg6 harg6 arg7 harg7 (harg2.unread x0) (harg3.unread x1) (harg4.unread x2) (harg5.unread x3) (k0_pay1 (F := F)) ⟨1, by decide⟩
  have h1 : st_k0_t1 (F := F) Variants.none c none i arg2 harg2 arg3 harg3 arg4 harg4 arg5 harg5 arg6 harg6 arg7 harg7 (harg2.unread x0) (harg3.unread x1) (harg4.unread x2) (harg5.unread x3) (k0_pay1 (F := F)) 1 = _ := st_k0_t1_succ (F := F) Variants.none c none i arg2 harg2 arg3 harg3 arg4 harg4 arg5 harg5 arg6 harg6 arg7 harg7 (harg2.unread x0) (harg3.unread x1) (harg4.unread x2) (harg5.unread x3) (k0_pay1 (F := F)) ⟨0, by decide⟩
  rw [e, h4, tripR_eq, h3, tripR_eq, h2, tripR_eq, h1, tripR_eq]
  rfl

/-! ## The slices at an index -/

open Idealize.ShloMosaic.ValueIdx in
/-- Trip k's x slice at (p, j) is the block at (p, 1024·k + j). -/
theorem xSlice_apply (k : Fin k0_t1_loop.trips) (x0 : Vec F S512x4096 .bf16) (p : Fin 512) (j : Fin 1024) :
    xSlice k x0 (ix2 p j) = x0 (ix2 p (⟨1024 * k.val + j.val, by have := trip_lt k; have := j.isLt; omega⟩ : Fin 4096)) := by
  unfold xSlice
  show x0 _ = x0 _
  refine congrArg x0 (funext fun a => Fin.ext ?_)
  match a with
  | ⟨0, _⟩ => show k0_off1 k 0 + 1 * p.val = p.val; rw [k0_off1_eq]; show 0 + 1 * p.val = p.val; omega
  | ⟨1, _⟩ => show k0_off1 k 1 + 1 * j.val = 1024 * k.val + j.val; rw [k0_off1_eq]; show 1024 * k.val + 1 * j.val = 1024 * k.val + j.val; omega

open Idealize.ShloMosaic.ValueIdx in
/-- Trip k's packed-weight slice at (q, l) is the block at (q, 128·k + l). -/
theorem wSlice_apply (k : Fin k0_t1_loop.trips) (x1 : Vec F S256x512 .i32) (q : Fin 256) (l : Fin 128) :
    wSlice k x1 (ix2 q l) = x1 (ix2 q (⟨128 * k.val + l.val, by have := trip_lt k; have := l.isLt; omega⟩ : Fin 512)) := by
  unfold wSlice
  show x1 _ = x1 _
  refine congrArg x1 (funext fun a => Fin.ext ?_)
  match a with
  | ⟨0, _⟩ => show k0_off2 k 0 + 1 * q.val = q.val; rw [k0_off2_eq]; show 0 + 1 * q.val = q.val; omega
  | ⟨1, _⟩ => show k0_off2 k 1 + 1 * l.val = 128 * k.val + l.val; rw [k0_off2_eq]; show 128 * k.val + 1 * l.val = 128 * k.val + l.val; omega

open Idealize.ShloMosaic.ValueIdx in
/-- Plane k of a scale or zero block at (0, q, g) is the block at (k, q, g). -/
theorem gSlice_apply (k : Fin k0_t1_loop.trips) (x : Vec F S4x256x16 .f32) (q : Fin 256) (g : Fin 16) :
    gSlice k x (ix3 (⟨0, Nat.one_pos⟩ : Fin 1) q g) = x (ix3 (⟨k.val, trip_lt k⟩ : Fin 4) q g) := by
  unfold gSlice
  show x _ = x _
  refine congrArg x (funext fun a => Fin.ext ?_)
  match a with
  | ⟨0, _⟩ => show k0_off3 k 0 + 1 * 0 = k.val; rw [k0_off3_eq]; show k.val + 1 * 0 = k.val; omega
  | ⟨1, _⟩ => show k0_off3 k 1 + 1 * q.val = q.val; rw [k0_off3_eq]; show 0 + 1 * q.val = q.val; omega
  | ⟨2, _⟩ => show k0_off3 k 2 + 1 * g.val = g.val; rw [k0_off3_eq]; show 0 + 1 * g.val = g.val; omega

end Cert.KernelIdeal.Body

end
-- ==== Proof.Layout.lean ====
/-
  The body's re-laying operations, read at an index.  All are about WHERE a value sits, so they hold for any element type.

  * a [256,128] tile viewed [256,1,128] and broadcast over 8 planes: entry (q, b, l) is entry (q, l) of the tile;
  * a [256,8,128] stack flattened to [256,1024]: column j is plane j / 128, lane j mod 128;
  * a [256,16] tile of per-group values viewed [256,16,1], broadcast to [256,16,8] and flattened to [256,128]:
    lane l holds group l / 8;
  * a [1,256,16] plane viewed [256,16]: entry (q, g) is entry (0, q, g);
  * a [1,256] row broadcast over 512 rows: entry (p, q) is entry (0, q).
  Together: a per-group value spread over the 1024 columns of a chunk sits at column j with group (j mod 128) / 8.
-/
import proofs.«422245_j20504173871125_3_alg».proof.KernelIdeal
import Idealize.ShloMosaic.Lib.Pipeline.Value
import Idealize.ShloMosaic.Lib.ValueIdx

set_option maxRecDepth 16384

noncomputable section

namespace Cert.KernelIdeal.Layout

open Cert.KernelIdeal Idealize.ShloMosaic Idealize.ShloMosaic.ValueIdx

variable {α : Type}

/-- Lane j mod 128 of a chunk column. -/
abbrev lane (j : Fin 1024) : Fin 128 := ⟨j.val % 128, Nat.mod_lt _ (by decide)⟩
/-- Bit plane j / 128 of a chunk column. -/
abbrev plane (j : Fin 1024) : Fin 8 := ⟨j.val / 128, by have := j.isLt; omega⟩
/-- The group, inside the chunk, of a chunk column: (j mod 128) / 8. -/
abbrev group (j : Fin 1024) : Fin 16 := ⟨(j.val % 128) / 8, by omega⟩

theorem tile_over_planes (v : S256x128.Idx → α) (h1 : S256x128.ShapeCasts S256x1x128) (h2 : S256x1x128.ShapeCasts S256x1x128)
    (hb : S256x1x128.Broadcasts S256x8x128) (q : Fin 256) (b : Fin 8) (l : Fin 128) :
    broadcastTo S256x8x128 (shapeCast S256x1x128 (shapeCast S256x1x128 v h1) h2) hb (ix3 q b l) = v (ix2 q l) := by
  rw [broadcastTo_apply _ hb (ix3 q b l) (ix3 q (⟨0, Nat.one_pos⟩ : Fin 1) l) (fun a => match a with
    | ⟨0, _⟩ => by show q.val = if (256 : Nat) = 1 then 0 else q.val; rw [if_neg (by decide)]
    | ⟨1, _⟩ => by show 0 = if (1 : Nat) = 1 then 0 else b.val; rw [if_pos rfl]
    | ⟨2, _⟩ => by show l.val = if (128 : Nat) = 1 then 0 else l.val; rw [if_neg (by decide)])]
  rw [shapeCast_self]
  exact shapeCast_apply v h1 _ (ix2 q l) (by
    rewrite [Shape.rowMajor_val_two, Shape.rowMajor_val_three]
    show q.val * 128 + l.val = (q.val * 1 + 0) * 128 + l.val; omega)

theorem planes_flat (u : S256x8x128.Idx → α) (h : S256x8x128.ShapeCasts S256x1024) (q : Fin 256) (j : Fin 1024) :
    shapeCast S256x1024 u h (ix2 q j) = u (ix3 q (plane j) (lane j)) :=
  shapeCast_apply u h _ _ (by
    rewrite [Shape.rowMajor_val_three, Shape.rowMajor_val_two]
    show (q.val * 8 + j.val / 128) * 128 + j.val % 128 = q.val * 1024 + j.val; omega)

theorem groups_over_lanes (v : S256x16.Idx → α) (h1 : S256x16.ShapeCasts S256x16x1) (h2 : S256x16x1.ShapeCasts S256x16x1)
    (hb : S256x16x1.Broadcasts S256x16x8) (hc : S256x16x8.ShapeCasts S256x128) (q : Fin 256) (l : Fin 128) :
    shapeCast S256x128 (broadcastTo S256x16x8 (shapeCast S256x16x1 (shapeCast S256x16x1 v h1) h2) hb) hc (ix2 q l)
      = v (ix2 q (⟨l.val / 8, by have := l.isLt; omega⟩ : Fin 16)) := by
  rw [shapeCast_apply _ hc (ix2 q l) (ix3 q (⟨l.val / 8, by have := l.isLt; omega⟩ : Fin 16) (⟨l.val % 8, Nat.mod_lt _ (by decide)⟩ : Fin 8)) (by
    rewrite [Shape.rowMajor_val_three, Shape.rowMajor_val_two]
    show (q.val * 16 + l.val / 8) * 8 + l.val % 8 = q.val * 128 + l.val; omega)]
  rw [broadcastTo_apply _ hb _ (ix3 q (⟨l.val / 8, by have := l.isLt; omega⟩ : Fin 16) (⟨0, Nat.one_pos⟩ : Fin 1)) (fun a => match a with
    | ⟨0, _⟩ => by show q.val = if (256 : Nat) = 1 then 0 else q.val; rw [if_neg (by decide)]
    | ⟨1, _⟩ => by show l.val / 8 = if (16 : Nat) = 1 then 0 else l.val / 8; rw [if_neg (by decide)]
    | ⟨2, _⟩ => by show 0 = if (1 : Nat) = 1 then 0 else l.val % 8; rw [if_pos rfl])]
  rw [shapeCast_self]
  exact shapeCast_apply v h1 _ _ (by
    rewrite [Shape.rowMajor_val_two, Shape.rowMajor_val_three]
    show q.val * 16 + l.val / 8 = (q.val * 16 + l.val / 8) * 1 + 0; omega)

theorem plane_as_tile (v : S1x256x16.Idx → α) (h : S1x256x16.ShapeCasts S256x16) (q : Fin 256) (g : Fin 16) :
    shapeCast S256x16 v h (ix2 q g) = v (ix3 (⟨0, Nat.one_pos⟩ : Fin 1) q g) :=
  shapeCast_apply v h _ _ (by
    rewrite [Shape.rowMajor_val_three, Shape.rowMajor_val_two]
    show (0 * 256 + q.val) * 16 + g.val = q.val * 16 + g.val; omega)

theorem row_over_rows (v : S1x256.Idx → α) (h : S1x256.ShapeCasts S1x256) (hb : S1x256.Broadcasts S512x256) (p : Fin 512) (q : Fin 256) :
    broadcastTo S512x256 (shapeCast S1x256 v h) hb (ix2 p q) = v (ix2 (⟨0, Nat.one_pos⟩ : Fin 1) q) := by
  rw [shapeCast_self]
  exact broadcastTo_apply v hb _ _ (fun a => match a with
    | ⟨0, _⟩ => by show 0 = if (1 : Nat) = 1 then 0 else p.val; rw [if_pos rfl]
    | ⟨1, _⟩ => by show q.val = if (256 : Nat) = 1 then 0 else q.val; rw [if_neg (by decide)])

/-- A per-group value of one chunk, spread over the chunk's 1024 columns: column j holds group (j mod 128) / 8. -/
theorem group_over_chunk (v : S1x256x16.Idx → α) (h0 : S1x256x16.ShapeCasts S256x16)
    (h1 : S256x16.ShapeCasts S256x16x1) (h2 : S256x16x1.ShapeCasts S256x16x1) (hb : S256x16x1.Broadcasts S256x16x8)
    (hc : S256x16x8.ShapeCasts S256x128) (h3 : S256x128.ShapeCasts S256x1x128) (h4 : S256x1x128.ShapeCasts S256x1x128)
    (hb' : S256x1x128.Broadcasts S256x8x128) (h5 : S256x8x128.ShapeCasts S256x1024) (q : Fin 256) (j : Fin 1024) :
    shapeCast S256x1024 (broadcastTo S256x8x128 (shapeCast S256x1x128 (shapeCast S256x1x128
      (shapeCast S256x128 (broadcastTo S256x16x8 (shapeCast S256x16x1 (shapeCast S256x16x1 (shapeCast S256x16 v h0) h1) h2) hb) hc)
        h3) h4) hb') h5 (ix2 q j)
      = v (ix3 (⟨0, Nat.one_pos⟩ : Fin 1) q (group j)) := by
  rw [planes_flat, tile_over_planes, groups_over_lanes, plane_as_tile]

end Cert.KernelIdeal.Layout

end
-- ==== Proof.Spec.lean ====
/-
  The mathematics shared by both programs, with no program imported.

  One output entry is  out[r, n] = (Σ_k x[r, k] · ŵ[n, k]) + bias[n]  over k < 4096, where the dequantized weight is
  ŵ[n, k] = (bit (k mod 8) of W[n, k / 8]  −  zero[n·64 + k / 64]) · scale[n·64 + k / 64]   (groups of 64 along k).

  The kernel walks k in another order: chunk c < 4 of 1024 columns, and inside a chunk column j < 1024 stands for
  bit plane j / 128 of packed byte j mod 128, that is for k = c·1024 + (j mod 128)·8 + j / 128.  That map is a bijection
  of Fin 4 × Fin 1024 onto Fin 4096, so the whole sum is the sum of the four chunk sums: a sum over a commutative
  monoid re-indexed along a bijection, which holds on the extended reals with no finiteness assumption.

  The reference extracts a bit with an ARITHMETIC shift, the kernel with a LOGICAL one; after masking with 1 only bit
  s of the word is left in either case, for every shift s < 32, so the two agree on every 32-bit word, negative or not.
-/
import Idealize.ShloMosaic.PureOps.Ideal
import Idealize.ShloMosaic.PureOps.Ideal.Laws
import Idealize.ShloMosaic.Lib.ValueIdx

noncomputable section

namespace Cert.Dequant

open Idealize.ShloMosaic Idealize.ShloMosaic.ValueIdx

/-! ## The column order of the kernel -/

/-- Column j of chunk c, in the kernel's bit-plane-major order, is column c·1024 + (j mod 128)·8 + j / 128 of the weight. -/
def col (c : Fin 4) (j : Fin 1024) : Fin 4096 :=
  ⟨c.val * 1024 + (j.val % 128) * 8 + j.val / 128, by have := c.isLt; have := j.isLt; omega⟩

theorem col_val (c : Fin 4) (j : Fin 1024) : (col c j).val = c.val * 1024 + (j.val % 128) * 8 + j.val / 128 := rfl

/-- The kernel's column order is a bijection between (chunk, column in the chunk) and the 4096 columns. -/
def colEquiv : Fin 4 × Fin 1024 ≃ Fin 4096 where
  toFun p := col p.1 p.2
  invFun k := (⟨k.val / 1024, by have := k.isLt; omega⟩, ⟨(k.val % 8) * 128 + (k.val % 1024) / 8, by have := k.isLt; omega⟩)
  left_inv p := by
    obtain ⟨c, j⟩ := p
    have hc := c.isLt; have hj := j.isLt
    -- j = 128·q + r with q < 8, r < 128; the column is k = 1024·c + 8·r + q
    obtain ⟨q, r, hq, hr, hjqr⟩ : ∃ q r : Nat, q < 8 ∧ r < 128 ∧ j.val = 128 * q + r :=
      ⟨j.val / 128, j.val % 128, by omega, by omega, by omega⟩
    have e1 : j.val % 128 = r := by omega
    have e2 : j.val / 128 = q := by omega
    have k1 : (c.val * 1024 + r * 8 + q) / 1024 = c.val := by omega
    have k2 : (c.val * 1024 + r * 8 + q) % 8 = q := by omega
    have k3 : (c.val * 1024 + r * 8 + q) % 1024 = r * 8 + q := by omega
    have k4 : (r * 8 + q) / 8 = r := by omega
    refine Prod.ext (Fin.ext ?_) (Fin.ext ?_)
    · show (c.val * 1024 + (j.val % 128) * 8 + j.val / 128) / 1024 = c.val
      rw [e1, e2, k1]
    · show ((c.val * 1024 + (j.val % 128) * 8 + j.val / 128) % 8) * 128 + ((c.val * 1024 + (j.val % 128) * 8 + j.val / 128) % 1024) / 8 = j.val
      rw [e1, e2, k2, k3, k4]; omega
  right_inv k := by
    have hk := k.isLt
    -- k = 1024·c + 8·r + q with c < 4, r < 128, q < 8
    obtain ⟨c, r, q, hc, hr, hq, hkcrq⟩ : ∃ c r q : Nat, c < 4 ∧ r < 128 ∧ q < 8 ∧ k.val = 1024 * c + 8 * r + q :=
      ⟨k.val / 1024, (k.val % 1024) / 8, k.val % 8, by omega, by omega, by omega, by omega⟩
    have e1 : k.val / 1024 = c := by omega
    have e2 : k.val % 8 = q := by omega
    have e3 : (k.val % 1024) / 8 = r := by omega
    have j1 : (q * 128 + r) % 128 = r := by omega
    have j2 : (q * 128 + r) / 128 = q := by omega
    refine Fin.ext ?_
    show (k.val / 1024) * 1024 + (((k.val % 8) * 128 + (k.val % 1024) / 8) % 128) * 8 + ((k.val % 8) * 128 + (k.val % 1024) / 8) / 128 = k.val
    rw [e1, e2, e3, j1, j2]; omega

/-- A sum over the 4096 columns is the sum over the four chunks of the chunk's 1024 columns taken in the kernel's order. -/
theorem sum_col {M : Type*} [AddCommMonoid M] (f : Fin 4096 → M) :
    ∑ k : Fin 4096, f k = ∑ c : Fin 4, ∑ j : Fin 1024, f (col c j) := by
  rw [← Fintype.sum_prod_type' (f := fun c j => f (col c j))]
  exact (Fintype.sum_equiv colEquiv (fun p => f (col p.1 p.2)) f (fun _ => rfl)).symm

/-- Four chunk sums accumulated from zero, one after the other, are the sum over the chunks. -/
theorem acc_four {M : Type*} [AddCommMonoid M] (P : Fin 4 → M) :
    (((0 + P 0) + P 1) + P 2) + P 3 = ∑ c : Fin 4, P c := by
  rw [Fin.sum_univ_four, zero_add]

/-! ## One bit of a packed word -/

/-- Masked with 1, a logical and an arithmetic right shift by s < 32 leave the same word: bit s of the operand. -/
theorem and_one_ushift_eq_sshift (w : BitVec 32) (s : Nat) (hs : s < 32) :
    (w >>> s) &&& 1#32 = (w.sshiftRight s) &&& 1#32 := by
  apply BitVec.eq_of_getLsbD_eq
  intro i hi
  rw [BitVec.getLsbD_and, BitVec.getLsbD_and, BitVec.getLsbD_ushiftRight, BitVec.getLsbD_sshiftRight]
  by_cases h0 : i = 0
  · subst h0
    simp [hs]
  · have : (1#32).getLsbD i = false := by
      rw [BitVec.getLsbD_one]; simp [h0]
    rw [this, Bool.and_false, Bool.and_false]

/-- Bit s of a packed word as an extended real (0 or 1), extracted by an arithmetic shift and the mask 1. -/
def bitA (w : BitVec 32) (s : Nat) : EReal :=
  FloatOps.sitofp (F := Ideal) .f32 (IntOp.andi (IntOp.shrsi .host w (BitVec.ofNat 32 s)) 1#32)

/-- The same bit extracted by a logical shift and the mask 1. -/
def bitL (w : BitVec 32) (s : Nat) : EReal :=
  FloatOps.sitofp (F := Ideal) .f32 (IntOp.andi (IntOp.shrui .vector w (BitVec.ofNat 32 s)) 1#32)

/-- For a shift below 32 the two extractions give the same number, on every word. -/
theorem bitL_eq_bitA (w : BitVec 32) (s : Nat) (hs : s < 32) : bitL w s = bitA w s := by
  have ht : (BitVec.ofNat 32 s).toNat = s := by
    rw [BitVec.toNat_ofNat]; exact Nat.mod_eq_of_lt (by omega)
  unfold bitL bitA IntOp.shrui IntOp.shrsi IntOp.andi
  rw [if_pos (by rw [ht]; exact hs), if_pos (by rw [ht]; exact hs)]
  show FloatOps.sitofp (F := Ideal) .f32 ((w >>> (BitVec.ofNat 32 s).toNat) &&& 1#32)
     = FloatOps.sitofp (F := Ideal) .f32 ((w.sshiftRight (BitVec.ofNat 32 s).toNat) &&& 1#32)
  rw [ht, and_one_ushift_eq_sshift w s hs]

/-! ## The specification -/

abbrev SX : Shape := ⟨2, ![8192, 4096]⟩
abbrev SW : Shape := ⟨2, ![4096, 512]⟩
abbrev SG : Shape := ⟨2, ![262144, 1]⟩
abbrev SB : Shape := ⟨1, ![4096]⟩

/-- The quantization group of weight entry (n, k): groups of 64 consecutive entries of the row-major weight. -/
def grp (n k : Fin 4096) : SG.Idx :=
  ix2 (⟨n.val * 64 + k.val / 64, by have := n.isLt; have := k.isLt; omega⟩ : Fin 262144) (⟨0, Nat.one_pos⟩ : Fin 1)

/-- The packed word holding weight entry (n, k): eight entries a word. -/
def wordOf (n k : Fin 4096) : SW.Idx :=
  ix2 n (⟨k.val / 8, by have := k.isLt; omega⟩ : Fin 512)

/-- The dequantized weight ŵ[n, k] = (bit (k mod 8) of W[n, k / 8] − zero[group]) · scale[group]. -/
def what (W : SW.Idx → BitVec 32) (s z : SG.Idx → EReal) (n k : Fin 4096) : EReal :=
  (bitA (W (wordOf n k)) (k.val % 8) - z (grp n k)) * s (grp n k)

/-- One output entry: the row of x against the dequantized row n of the weight, plus the bias. -/
def outAt (x : SX.Idx → EReal) (W : SW.Idx → BitVec 32) (s z : SG.Idx → EReal) (b : SB.Idx → EReal)
    (r : Fin 8192) (n : Fin 4096) : EReal :=
  (∑ k : Fin 4096, x (ix2 r k) * what W s z n k) + b (ix1 n)

/-- The whole result as one function of the argument arrays. -/
def G (x : SX.Idx → EReal) (W : SW.Idx → BitVec 32) (s z : SG.Idx → EReal) (b : SB.Idx → EReal) : SX.Idx → EReal :=
  fun i => outAt x W s z b (i 0) (i 1)

/-- The contribution of chunk c to entry (r, n): its 1024 columns in the kernel's order. -/
def chunkSum (x : SX.Idx → EReal) (W : SW.Idx → BitVec 32) (s z : SG.Idx → EReal)
    (r : Fin 8192) (n : Fin 4096) (c : Fin 4) : EReal :=
  ∑ j : Fin 1024, x (ix2 r (col c j)) * what W s z n (col c j)

/-- The entry is the four chunk contributions accumulated from zero, then the bias. -/
theorem outAt_eq_chunks (x : SX.Idx → EReal) (W : SW.Idx → BitVec 32) (s z : SG.Idx → EReal) (b : SB.Idx → EReal)
    (r : Fin 8192) (n : Fin 4096) :
    outAt x W s z b r n
      = ((((0 + chunkSum x W s z r n 0) + chunkSum x W s z r n 1) + chunkSum x W s z r n 2) + chunkSum x W s z r n 3)
          + b (ix1 n) := by
  unfold outAt
  rw [acc_four (chunkSum x W s z r n), sum_col]
  rfl

end Cert.Dequant

end
-- ==== Proof.Payload.lean ====
/-
  The body's arithmetic, read at one entry of the output block, at the ideal instance.

  One trip adds to the accumulator, at entry (p, q), the sum over the chunk's 1024 columns j of
      x-slice[p, j] · ((bit (j / 128) of w-slice[q, j mod 128]  −  zero[0, q, (j mod 128) / 8]) · scale[0, q, (j mod 128) / 8]):
  the matrix product into a zero accumulator is that sum, and the second operand is the dequantized tile, whose column j
  is bit plane j / 128 of packed lane j mod 128 with the group value of lane j mod 128.  The changes of float format are
  the identity here.  After the loop the bias row is added entry by entry, and the loop starts from zero.
-/
import proofs.«422245_j20504173871125_3_alg».proof.Proof.Gen.KernelIdeal.Skeleton
import proofs.«422245_j20504173871125_3_alg».proof.Proof.Layout
import proofs.«422245_j20504173871125_3_alg».proof.Proof.Spec
import Idealize.ShloMosaic.PureOps.Ideal.Laws

set_option maxRecDepth 16384

noncomputable section

namespace Cert.KernelIdeal.Payload

open Cert.KernelIdeal Cert.KernelIdeal.Gen Cert.KernelIdeal.Layout Cert.Dequant
open Idealize.ShloMosaic Idealize.ShloMosaic.ValueIdx

/-! ## The matrix product's operand indices -/

theorem lhs_axis0 (i : S512x256.Idx) (k : dot_S512x1024_S256x1024_S512x256_1_1_0_0_n_n.contr.Idx) :
    (dot_S512x1024_S256x1024_S512x256_1_1_0_0_n_n.lhsIdx i k 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
theorem lhs_axis1 (i : S512x256.Idx) (k : dot_S512x1024_S256x1024_S512x256_1_1_0_0_n_n.contr.Idx) :
    (dot_S512x1024_S256x1024_S512x256_1_1_0_0_n_n.lhsIdx i k 1).val = (k ⟨0, by decide⟩).val :=
  dot_S512x1024_S256x1024_S512x256_1_1_0_0_n_n.lhsIdx_val_of_single rfl i k
theorem rhs_axis0 (i : S512x256.Idx) (k : dot_S512x1024_S256x1024_S512x256_1_1_0_0_n_n.contr.Idx) :
    (dot_S512x1024_S256x1024_S512x256_1_1_0_0_n_n.rhsIdx i k 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
theorem rhs_axis1 (i : S512x256.Idx) (k : dot_S512x1024_S256x1024_S512x256_1_1_0_0_n_n.contr.Idx) :
    (dot_S512x1024_S256x1024_S512x256_1_1_0_0_n_n.rhsIdx i k 1).val = (k ⟨0, by decide⟩).val :=
  dot_S512x1024_S256x1024_S512x256_1_1_0_0_n_n.rhsIdx_val_of_single rfl i k

/-- The product of a [512,1024] tile with the transpose of a [256,1024] tile, into zero, at entry (p, q): the sum over the
    1024 shared columns. -/
theorem product_apply (l : FVec Ideal S512x1024 .bf16) (r : FVec Ideal S256x1024 .bf16) (p : Fin 512) (q : Fin 256) :
    matmul dot_S512x1024_S256x1024_S512x256_1_1_0_0_n_n none l r (constant S512x256 .f32 0x00000000#32) (ix2 p q)
      = ∑ j : Fin 1024, l (ix2 p j) * r (ix2 q j) := by
  show FloatOps.matmul dot_S512x1024_S256x1024_S512x256_1_1_0_0_n_n none l r (constant S512x256 .f32 0x00000000#32) (ix2 p q) = _
  rw [Ideal.matmul_constant_zero_apply, ← Equiv.sum_comp (contrEquiv1 dot_S512x1024_S256x1024_S512x256_1_1_0_0_n_n 1024 rfl rfl).symm]
  refine Finset.sum_congr rfl fun j _ => ?_
  have hk := contrEquiv1_symm_val dot_S512x1024_S256x1024_S512x256_1_1_0_0_n_n 1024 rfl rfl j
  have el : dot_S512x1024_S256x1024_S512x256_1_1_0_0_n_n.lhsIdx (ix2 p q) ((contrEquiv1 dot_S512x1024_S256x1024_S512x256_1_1_0_0_n_n 1024 rfl rfl).symm j) = ix2 p j := funext fun a => Fin.ext (by
    match a with
    | ⟨0, _⟩ => exact lhs_axis0 _ _
    | ⟨1, _⟩ => exact (lhs_axis1 _ _).trans hk)
  have er : dot_S512x1024_S256x1024_S512x256_1_1_0_0_n_n.rhsIdx (ix2 p q) ((contrEquiv1 dot_S512x1024_S256x1024_S512x256_1_1_0_0_n_n 1024 rfl rfl).symm j) = ix2 q j := funext fun a => Fin.ext (by
    match a with
    | ⟨0, _⟩ => exact rhs_axis0 _ _
    | ⟨1, _⟩ => exact (rhs_axis1 _ _).trans hk)
  rw [el, er]

/-! ## The dequantized tile -/

/-- The unpacked bits of a chunk: column j of row q is bit j / 128 of packed lane j mod 128, as 0 or 1. -/
theorem bits_apply (v16 : Vec Ideal S256x128 .i32) (h1 : S256x128.ShapeCasts S256x1x128) (h2 : S256x1x128.ShapeCasts S256x1x128)
    (hb : S256x1x128.Broadcasts S256x8x128) (hi : S256x8x128.Iotas .tc 32 [1]) (h5 : S256x8x128.ShapeCasts S256x1024)
    (q : Fin 256) (j : Fin 1024) :
    shapeCast S256x1024 (sitofp (F := Ideal) .f32 (andi (shrui (broadcastTo S256x8x128 (shapeCast S256x1x128 (shapeCast S256x1x128 v16 h1) h2) hb)
        (iota .tc S256x8x128 32 [1] hi)) (broadcast S256x8x128 (1#32 : BitVec 32)))) h5 (ix2 q j)
      = bitL (v16 (ix2 q (lane j))) (j.val / 128) := by
  rw [planes_flat]
  show FloatOps.sitofp (F := Ideal) .f32 (IntOp.andi (IntOp.shrui .vector
      (broadcastTo S256x8x128 (shapeCast S256x1x128 (shapeCast S256x1x128 v16 h1) h2) hb (ix3 q (plane j) (lane j)))
      (iota .tc S256x8x128 32 [1] hi (ix3 q (plane j) (lane j)))) (1#32 : BitVec 32)) = _
  rw [tile_over_planes, iota_single_apply]
  rfl

/-- The dequantization, entry by entry: (bits − zero) · scale; narrowing the float format changes nothing here. -/
theorem dequant_apply (A B C : FVec Ideal S256x1024 .f32) (h : FTy.bits .bf16 < FTy.bits .f32) (i : S256x1024.Idx) :
    truncf .bf16 (mulf (subf A B) C) h i = (A i - B i) * C i := rfl

/-! ## The payloads at an entry -/

/-- The loop starts from zero. -/
theorem start_apply (p : Fin 512) (q : Fin 256) : k0_pay1 (F := Ideal) (ix2 p q) = 0 := by
  unfold k0_pay1
  exact Ideal.ofBits_zero_f32

/-- One trip, at entry (p, q): the accumulator plus the chunk's 1024 products. -/
theorem trip_apply (acc : FVec Ideal S512x256 .f32) (v13 : Vec Ideal S512x1024 .bf16) (v16 : Vec Ideal S256x128 .i32)
    (v27 v30 : Vec Ideal S1x256x16 .f32) (p : Fin 512) (q : Fin 256) :
    k0_pay2 acc v13 v16 v27 v30 (ix2 p q)
      = acc (ix2 p q) + ∑ j : Fin 1024, v13 (ix2 p j)
          * ((bitL (v16 (ix2 q (lane j))) (j.val / 128) - v30 (ix3 (⟨0, Nat.one_pos⟩ : Fin 1) q (group j)))
              * v27 (ix3 (⟨0, Nat.one_pos⟩ : Fin 1) q (group j))) := by
  unfold k0_pay2
  dsimp only
  refine (addf_apply _ _ _).trans ?_
  rw [product_apply]
  congr 1
  refine Finset.sum_congr rfl fun j _ => ?_
  rw [shapeCast_self]
  rw [dequant_apply, bits_apply, group_over_chunk, group_over_chunk]

/-- After the loop, at entry (p, q): the accumulated value plus the bias of column q. -/
theorem finish_apply (v2 : FVec Ideal S512x256 .f32) (v3 : Vec Ideal S1x256 .f32) (p : Fin 512) (q : Fin 256) :
    k0_pay3 v2 v3 (ix2 p q) = v2 (ix2 p q) + v3 (ix2 (⟨0, Nat.one_pos⟩ : Fin 1) q) := by
  unfold k0_pay3
  refine (addf_apply _ _ _).trans ?_
  rw [row_over_rows]

end Cert.KernelIdeal.Payload

end
-- ==== Proof.Prefix.lean ====
/-
  What the region finds: the arrays the host operations before the call lay out, read at an index, at the ideal instance.

  * x is narrowed to bf16 (the identity here), viewed [8192, 4, 128, 8], its last two axes swapped, and flattened again:
    column 1024·c + j of the result is column c·1024 + (j mod 128)·8 + j / 128 of x — the kernel's column order.
  * scale and zero, [262144, 1], are viewed [4096, 64], then [4096, 4, 16], and the first two axes swapped:
    entry (c, n, g) of the result is group n·64 + c·16 + g.
  * the bias is viewed as one row.
-/
import proofs.«422245_j20504173871125_3_alg».proof.Proof.Gen.KernelIdeal.Frame
import proofs.«422245_j20504173871125_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Prefix

open Cert.KernelIdeal Cert.KernelIdeal.Gen Cert.Dequant
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Column 1024·c + j of a [·, 4096] array. -/
abbrev kcol (c : Fin 4) (j : Fin 1024) : Fin 4096 := ⟨1024 * c.val + j.val, by have := c.isLt; have := j.isLt; omega⟩

theorem xperm_term (c : Dev nD) :
    (V m c main_v10 : S8192x4096.Idx → EReal)
      = shapeCast S8192x4096 (transpose S8192x4x8x128 [0, 1, 3, 2]
          (shapeCast S8192x4x128x8 (truncf (F := Ideal) .bf16 (m ((c : Thread nD τ).loc main_arg0)) bitsLt_bf16_f32)
            shapeCasts_S8192x4096_S8192x4x128x8) transposes_S8192x4x128x8_S8192x4x8x128_0_1_3_2)
          shapeCasts_S8192x4x8x128_S8192x4096 := by
  dsimp only [Gen.V, Gen.hostOps0]; after_results; rfl

/-- The re-laid x at (r, 1024·c + j) is x at (r, col c j). -/
theorem xperm_apply (c : Dev nD) (r : Fin 8192) (cc : Fin 4) (j : Fin 1024) :
    (V m c main_v10 : S8192x4096.Idx → EReal) (ix2 r (kcol cc j)) = (m ((c : Thread nD τ).loc main_arg0) : S8192x4096.Idx → EReal) (ix2 r (col cc j)) := by
  have hc := cc.isLt; have hj := j.isLt
  rw [xperm_term]
  rw [shapeCast_apply _ shapeCasts_S8192x4x8x128_S8192x4096 (ix2 r (kcol cc j))
    (ix4 r cc (⟨j.val / 128, by omega⟩ : Fin 8) (⟨j.val % 128, by omega⟩ : Fin 128)) (by
      rewrite [Shape.rowMajor_val_four, Shape.rowMajor_val_two]
      show ((r.val * 4 + cc.val) * 8 + j.val / 128) * 128 + j.val % 128 = r.val * 4096 + (1024 * cc.val + j.val); omega)]
  rw [transpose_apply [0, 1, 3, 2] _ transposes_S8192x4x128x8_S8192x4x8x128_0_1_3_2 _
    (ix4 r cc (⟨j.val % 128, by omega⟩ : Fin 128) (⟨j.val / 128, by omega⟩ : Fin 8)) (fun b => match b with
      | ⟨0, _⟩ => rfl
      | ⟨1, _⟩ => rfl
      | ⟨2, _⟩ => rfl
      | ⟨3, _⟩ => rfl)]
  rw [shapeCast_apply _ shapeCasts_S8192x4096_S8192x4x128x8 _ (ix2 r (col cc j)) (by
      rewrite [Shape.rowMajor_val_two, Shape.rowMajor_val_four]
      show r.val * 4096 + (cc.val * 1024 + (j.val % 128) * 8 + j.val / 128) = ((r.val * 4 + cc.val) * 128 + j.val % 128) * 8 + j.val / 128; omega)]
  rfl

/-- The group index n·64 + c·16 + g of the [262144, 1] tables. -/
abbrev gidx (cc : Fin 4) (n : Fin 4096) (g : Fin 16) : SG.Idx :=
  ix2 (⟨n.val * 64 + cc.val * 16 + g.val, by have := cc.isLt; have := n.isLt; have := g.isLt; omega⟩ : Fin 262144) (⟨0, Nat.one_pos⟩ : Fin 1)

/-- A [262144, 1] table viewed [4096, 64], then [4096, 4, 16], first two axes swapped, at (c, n, g): group n·64 + c·16 + g. -/
theorem relaid_table_apply (T : S262144x1.Idx → EReal) (cc : Fin 4) (n : Fin 4096) (g : Fin 16) :
    transpose S4x4096x16 [1, 0, 2] (shapeCast S4096x4x16 (shapeCast S4096x64 T shapeCasts_S262144x1_S4096x64) shapeCasts_S4096x64_S4096x4x16)
        transposes_S4096x4x16_S4x4096x16_1_0_2 (ix3 cc n g) = T (gidx cc n g) := by
  have hc := cc.isLt; have hn := n.isLt; have hg := g.isLt
  rw [transpose_apply [1, 0, 2] _ transposes_S4096x4x16_S4x4096x16_1_0_2 (ix3 cc n g) (ix3 n cc g) (fun b => match b with
      | ⟨0, _⟩ => rfl
      | ⟨1, _⟩ => rfl
      | ⟨2, _⟩ => rfl)]
  rw [shapeCast_apply _ shapeCasts_S4096x64_S4096x4x16 (ix3 n cc g) (ix2 n (⟨cc.val * 16 + g.val, by omega⟩ : Fin 64)) (by
      rewrite [Shape.rowMajor_val_two, Shape.rowMajor_val_three]
      show n.val * 64 + (cc.val * 16 + g.val) = (n.val * 4 + cc.val) * 16 + g.val; omega)]
  exact shapeCast_apply T shapeCasts_S262144x1_S4096x64 _ (gidx cc n g) (by
      rewrite [Shape.rowMajor_val_two, Shape.rowMajor_val_two]
      show (n.val * 64 + cc.val * 16 + g.val) * 1 + 0 = n.val * 64 + (cc.val * 16 + g.val); omega)

theorem scale_term (c : Dev nD) :
    (V m c main_v3 : S4x4096x16.Idx → EReal)
      = transpose S4x4096x16 [1, 0, 2] (shapeCast S4096x4x16 (shapeCast S4096x64 (m ((c : Thread nD τ).loc main_arg2)) shapeCasts_S262144x1_S4096x64)
          shapeCasts_S4096x64_S4096x4x16) transposes_S4096x4x16_S4x4096x16_1_0_2 := by
  dsimp only [Gen.V, Gen.hostOps0]; after_results; rfl

theorem zero_term (c : Dev nD) :
    (V m c main_v5 : S4x4096x16.Idx → EReal)
      = transpose S4x4096x16 [1, 0, 2] (shapeCast S4096x4x16 (shapeCast S4096x64 (m ((c : Thread nD τ).loc main_arg3)) shapeCasts_S262144x1_S4096x64)
          shapeCasts_S4096x64_S4096x4x16) transposes_S4096x4x16_S4x4096x16_1_0_2 := by
  dsimp only [Gen.V, Gen.hostOps0]; after_results; rfl

/-- The re-laid scale at (c, n, g) is scale of group n·64 + c·16 + g. -/
theorem scale_apply (c : Dev nD) (cc : Fin 4) (n : Fin 4096) (g : Fin 16) :
    (V m c main_v3 : S4x4096x16.Idx → EReal) (ix3 cc n g) = (m ((c : Thread nD τ).loc main_arg2) : S262144x1.Idx → EReal) (gidx cc n g) := by
  rw [scale_term]; exact relaid_table_apply _ cc n g

/-- The re-laid zero at (c, n, g) is zero of group n·64 + c·16 + g. -/
theorem zero_apply (c : Dev nD) (cc : Fin 4) (n : Fin 4096) (g : Fin 16) :
    (V m c main_v5 : S4x4096x16.Idx → EReal) (ix3 cc n g) = (m ((c : Thread nD τ).loc main_arg3) : S262144x1.Idx → EReal) (gidx cc n g) := by
  rw [zero_term]; exact relaid_table_apply _ cc n g

theorem bias_term (c : Dev nD) :
    (V m c main_v6 : S1x4096.Idx → EReal) = shapeCast S1x4096 (m ((c : Thread nD τ).loc main_arg4)) shapeCasts_S4096_S1x4096 := by
  dsimp only [Gen.V, Gen.hostOps0]; after_results; rfl

/-- The bias row at (0, n) is the bias at n. -/
theorem bias_apply (c : Dev nD) (n : Fin 4096) :
    (V m c main_v6 : S1x4096.Idx → EReal) (ix2 (⟨0, Nat.one_pos⟩ : Fin 1) n) = (m ((c : Thread nD τ).loc main_arg4) : S4096.Idx → EReal) (ix1 n) := by
  rw [bias_term]
  exact shapeCast_apply _ shapeCasts_S4096_S1x4096 _ (ix1 n) (by
      rewrite [Shape.rowMajor_val_one, Shape.rowMajor_val_two]
      show n.val = 0 * 4096 + n.val; omega)

/-- The group of weight entry (n, col c j) is n·64 + c·16 + (j mod 128) / 8. -/
theorem grp_col (cc : Fin 4) (n : Fin 4096) (j : Fin 1024) :
    gidx cc n (⟨(j.val % 128) / 8, by omega⟩ : Fin 16) = grp n (col cc j) := by
  have hc := cc.isLt; have hn := n.isLt; have hj := j.isLt
  obtain ⟨q, r, hq, hr, hjqr⟩ : ∃ q r : Nat, q < 8 ∧ r < 128 ∧ j.val = 128 * q + r :=
    ⟨j.val / 128, j.val % 128, by omega, by omega, by omega⟩
  have e1 : j.val % 128 = r := by omega
  have e2 : j.val / 128 = q := by omega
  have e3 : (cc.val * 1024 + r * 8 + q) / 64 = cc.val * 16 + r / 8 := by omega
  unfold grp
  refine congrArg (fun a : Fin 262144 => (ix2 a (⟨0, Nat.one_pos⟩ : Fin 1) : SG.Idx)) (Fin.ext ?_)
  show n.val * 64 + cc.val * 16 + (j.val % 128) / 8 = n.val * 64 + (cc.val * 1024 + (j.val % 128) * 8 + j.val / 128) / 64
  rw [e1, e2, e3]; omega

/-- The packed word of weight entry (n, col c j) is lane j mod 128 of chunk c, and its bit is plane j / 128. -/
theorem word_col (cc : Fin 4) (n : Fin 4096) (j : Fin 1024) :
    wordOf n (col cc j) = ix2 n (⟨128 * cc.val + j.val % 128, by have := cc.isLt; omega⟩ : Fin 512) ∧ (col cc j).val % 8 = j.val / 128 := by
  have hc := cc.isLt; have hj := j.isLt
  obtain ⟨q, r, hq, hr, hjqr⟩ : ∃ q r : Nat, q < 8 ∧ r < 128 ∧ j.val = 128 * q + r :=
    ⟨j.val / 128, j.val % 128, by omega, by omega, by omega⟩
  have e1 : j.val % 128 = r := by omega
  have e2 : j.val / 128 = q := by omega
  have e3 : (cc.val * 1024 + r * 8 + q) / 8 = 128 * cc.val + r := by omega
  have e4 : (cc.val * 1024 + r * 8 + q) % 8 = q := by omega
  constructor
  · unfold wordOf
    refine congrArg (fun a : Fin 512 => (ix2 n a : SW.Idx)) (Fin.ext ?_)
    show (cc.val * 1024 + (j.val % 128) * 8 + j.val / 128) / 8 = 128 * cc.val + j.val % 128
    rw [e1, e2, e3]
  · show (cc.val * 1024 + (j.val % 128) * 8 + j.val / 128) % 8 = j.val / 128
    rw [e1, e2, e4]

end Cert.KernelIdeal.Prefix

end
-- ==== Proof.Entry.lean ====
/-
  One entry of one output block is the specification's entry.

  Take a grid point whose output block is block (I, J): rows 512·I … and columns 256·J … of the result.  Its five input
  blocks are rows 512·I … of the re-laid x, rows 256·J … of the packed weight, rows 256·J … of every plane of the re-laid
  scale and zero, and columns 256·J … of the bias row.  With r = 512·I + p and n = 256·J + q, trip c of the body adds, over
  the chunk's columns j, exactly x[r, col c j] · ŵ[n, col c j]: the re-laid x at column 1024·c + j is x at col c j, lane
  j mod 128 of the packed slice is the word of col c j, plane j / 128 is its bit, and group (j mod 128) / 8 of plane c
  is the quantization group of (n, col c j).  So the four trips and the bias give the specification's entry (r, n).
-/
import proofs.«422245_j20504173871125_3_alg».proof.Proof.Body
import proofs.«422245_j20504173871125_3_alg».proof.Proof.Payload
import proofs.«422245_j20504173871125_3_alg».proof.Proof.Prefix

set_option maxRecDepth 16384

noncomputable section

namespace Cert.KernelIdeal.Entry

open Cert.KernelIdeal Cert.KernelIdeal.Gen Cert.KernelIdeal.Body Cert.KernelIdeal.Payload Cert.KernelIdeal.Layout
open Cert.KernelIdeal.Prefix Cert.Dequant
open Idealize.ShloMosaic Idealize.ShloMosaic.ValueIdx

/-- Trip k's products, summed over the chunk, are the specification's chunk sum for chunk k. -/
theorem chunk_eq (X : SX.Idx → EReal) (W : SW.Idx → BitVec 32) (S Z : SG.Idx → EReal)
    (x0 : Vec Ideal S512x4096 .bf16) (x1 : Vec Ideal S256x512 .i32) (x2 x3 : Vec Ideal S4x256x16 .f32)
    (r : Fin 8192) (n : Fin 4096) (p : Fin 512) (q : Fin 256)
    (h0 : ∀ (cc : Fin 4) (j : Fin 1024), x0 (ix2 p (kcol cc j)) = X (ix2 r (col cc j)))
    (h1 : ∀ b : Fin 512, x1 (ix2 q b) = W (ix2 n b))
    (h2 : ∀ (cc : Fin 4) (g : Fin 16), x2 (ix3 cc q g) = S (gidx cc n g))
    (h3 : ∀ (cc : Fin 4) (g : Fin 16), x3 (ix3 cc q g) = Z (gidx cc n g))
    (k : Fin k0_t1_loop.trips) :
    (∑ j : Fin 1024, xSlice k x0 (ix2 p j)
        * ((bitL (wSlice k x1 (ix2 q (lane j))) (j.val / 128) - gSlice k x3 (ix3 (⟨0, Nat.one_pos⟩ : Fin 1) q (group j)))
            * gSlice k x2 (ix3 (⟨0, Nat.one_pos⟩ : Fin 1) q (group j))))
      = chunkSum X W S Z r n ⟨k.val, trip_lt k⟩ := by
  unfold chunkSum
  refine Finset.sum_congr rfl fun j _ => ?_
  have hj := j.isLt
  rw [xSlice_apply, wSlice_apply, gSlice_apply, gSlice_apply]
  unfold what
  obtain ⟨hw, hb⟩ := word_col ⟨k.val, trip_lt k⟩ n j
  congr 1
  · exact h0 ⟨k.val, trip_lt k⟩ j
  · congr 1
    · congr 1
      · rw [bitL_eq_bitA _ _ (by omega), hb, hw]
        exact congrArg (fun w => bitA w (j.val / 128)) (h1 _)
      · exact (h3 ⟨k.val, trip_lt k⟩ (group j)).trans (congrArg Z (grp_col ⟨k.val, trip_lt k⟩ n j))
    · exact (h2 ⟨k.val, trip_lt k⟩ (group j)).trans (congrArg S (grp_col ⟨k.val, trip_lt k⟩ n j))

/-- One trip at entry (p, q): the accumulator there plus the chunk's products. -/
theorem step_apply (k : Fin k0_t1_loop.trips) (x0 : Vec Ideal S512x4096 .bf16) (x1 : Vec Ideal S256x512 .i32)
    (x2 x3 : Vec Ideal S4x256x16 .f32) (acc : FVec Ideal S512x256 .f32) (p : Fin 512) (q : Fin 256) :
    step k x0 x1 x2 x3 acc (ix2 p q)
      = acc (ix2 p q) + ∑ j : Fin 1024, xSlice k x0 (ix2 p j)
        * ((bitL (wSlice k x1 (ix2 q (lane j))) (j.val / 128) - gSlice k x3 (ix3 (⟨0, Nat.one_pos⟩ : Fin 1) q (group j)))
            * gSlice k x2 (ix3 (⟨0, Nat.one_pos⟩ : Fin 1) q (group j))) := by
  unfold step
  exact trip_apply _ _ _ _ _ p q

/-- The output block's entry (p, q) is the specification's entry (r, n), when the input blocks are the rows and columns
    of the arrays that r and n name. -/
theorem block_entry (X : SX.Idx → EReal) (W : SW.Idx → BitVec 32) (S Z : SG.Idx → EReal) (B : SB.Idx → EReal)
    (c : Dev nD) (i : grid0.Coords) (arg2 : Memref sig .tc .vmem S512x4096 .bf16) (harg2 : arg2.IsWhole) (arg3 : Memref sig .tc .vmem S256x512 .i32) (harg3 : arg3.IsWhole) (arg4 : Memref sig .tc .vmem S4x256x16 .f32) (harg4 : arg4.IsWhole) (arg5 : Memref sig .tc .vmem S4x256x16 .f32) (harg5 : arg5.IsWhole) (arg6 : Memref sig .tc .vmem S1x256 .f32) (harg6 : arg6.IsWhole) (arg7 : Memref sig .tc .vmem S512x256 .f32) (harg7 : arg7.IsWhole)
    (x0 : Vec Ideal S512x4096 .bf16) (x1 : Vec Ideal S256x512 .i32) (x2 x3 : Vec Ideal S4x256x16 .f32) (x4 : Vec Ideal S1x256 .f32)
    (r : Fin 8192) (n : Fin 4096) (p : Fin 512) (q : Fin 256)
    (h0 : ∀ (cc : Fin 4) (j : Fin 1024), x0 (ix2 p (kcol cc j)) = X (ix2 r (col cc j)))
    (h1 : ∀ b : Fin 512, x1 (ix2 q b) = W (ix2 n b))
    (h2 : ∀ (cc : Fin 4) (g : Fin 16), x2 (ix3 cc q g) = S (gidx cc n g))
    (h3 : ∀ (cc : Fin 4) (g : Fin 16), x3 (ix3 cc q g) = Z (gidx cc n g))
    (h4 : x4 (ix2 (⟨0, Nat.one_pos⟩ : Fin 1) q) = B (ix1 n)) :
    out0_A_5 (F := Ideal) c i arg2 harg2 arg3 harg3 arg4 harg4 arg5 harg5 arg6 harg6 arg7 harg7 x0 x1 x2 x3 x4 (ix2 p q) = outAt X W S Z B r n := by
  rw [Body.out_eq, finish_apply, step_apply, step_apply, step_apply, step_apply, start_apply, outAt_eq_chunks,
    chunk_eq X W S Z x0 x1 x2 x3 r n p q h0 h1 h2 h3, chunk_eq X W S Z x0 x1 x2 x3 r n p q h0 h1 h2 h3,
    chunk_eq X W S Z x0 x1 x2 x3 r n p q h0 h1 h2 h3, chunk_eq X W S Z x0 x1 x2 x3 r n p q h0 h1 h2 h3, h4]
  rfl

end Cert.KernelIdeal.Entry

end
-- ==== Proof.Final.lean ====
/-
  The kernel's result array, whole: after the run it holds the specification's function of the launch arrays.

  The grid is 16 × 16; point t owns output block (I, J) = (t / 16, t mod 16), reads block I of the re-laid x (whole rows),
  block J of the packed weight, of every plane of the re-laid scale and zero, and of the bias row, and writes its block
  back at every point.  By the entry lemma each written block is the block of the specification's function; the 256
  blocks tile the [8192, 4096] result, so the array ends at that function everywhere.
-/
import proofs.«422245_j20504173871125_3_alg».proof.Proof.Gen.KernelIdeal.Value
import proofs.«422245_j20504173871125_3_alg».proof.Proof.Entry

set_option maxRecDepth 16384

noncomputable section

namespace Cert.KernelIdeal.Final

open Cert.KernelIdeal Cert.KernelIdeal.Gen Cert.KernelIdeal.Prefix Cert.KernelIdeal.Entry Cert.Dequant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's function of the launch arrays on core c. -/
abbrev result (c : Dev nD) : S8192x4096.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4))

/-- The printed index maps, decided over the grid: every input window's block index in terms of the output's (I, J). -/
theorem block_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 3) = 0 ∧ win0_2.index t (1 : Fin 3) = win0_5.index t (1 : Fin 2) ∧ win0_2.index t (2 : Fin 3) = 0
    ∧ win0_3.index t (0 : Fin 3) = 0 ∧ win0_3.index t (1 : Fin 3) = win0_5.index t (1 : Fin 2) ∧ win0_3.index t (2 : Fin 3) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 15 :=
  (by decide +kernel : ∀ t : Fin grid0.N, _)

/-- Every block (I, J) of the result is some point's. -/
theorem block_onto : ∀ (q0 q1 : Fin 16), ∃ t : Fin cfg0.N, win0_5.index t = ![q0.val, q1.val] :=
  (by decide +kernel : ∀ (q0 q1 : Fin 16), ∃ t : Fin grid0.N, win0_5.index t = ![q0.val, q1.val])

/-- What point t writes back is block t of the specification's function. -/
theorem flushed_eq (c : Dev nD) (t : Fin cfg0.N) :
    (dats m 0 c).flushed 5 t = ((cfg0.win 5).blk t).view.read (Elt Ideal) (result m c) := by
  rw [Value.flushed5_A]
  obtain ⟨e00, e01, e10, e11, e20, e21, e22, e30, e31, e32, e40, e41, b0, b1⟩ := block_facts t
  funext y
  revert y
  show ∀ y : S512x256.Idx, out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) y
      = result m c (((cfg0.win 5).blk t).view.emb y)
  intro y
  obtain ⟨p, q, rfl⟩ : ∃ (p : Fin 512) (q : Fin 256), y = ix2 p q := ⟨y 0, y 1, eq_ix2 y⟩
  have hp := p.isLt; have hq := q.isLt
  have hemb : ((cfg0.win 5).blk t).view.emb (ix2 p q)
      = (ix2 (⟨win0_5.index t (0 : Fin 2) * 512 + p.val, by omega⟩ : Fin 8192) (⟨win0_5.index t (1 : Fin 2) * 256 + q.val, by omega⟩ : Fin 4096) : S8192x4096.Idx) := by
    funext a; apply Fin.ext
    match a with
    | ⟨0, _⟩ => show win0_5.index t (0 : Fin 2) * 512 + 1 * p.val = win0_5.index t (0 : Fin 2) * 512 + p.val; omega
    | ⟨1, _⟩ => show win0_5.index t (1 : Fin 2) * 256 + 1 * q.val = win0_5.index t (1 : Fin 2) * 256 + q.val; omega
  rw [hemb]
  refine block_entry (m ((c : Thread nD τ).loc main_arg0)) (m ((c : Thread nD τ).loc main_arg1)) (m ((c : Thread nD τ).loc main_arg2)) (m ((c : Thread nD τ).loc main_arg3)) (m ((c : Thread nD τ).loc main_arg4))
    c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)
    (⟨win0_5.index t (0 : Fin 2) * 512 + p.val, by omega⟩ : Fin 8192) (⟨win0_5.index t (1 : Fin 2) * 256 + q.val, by omega⟩ : Fin 4096) p q ?_ ?_ ?_ ?_ ?_
  · -- the x block: row p of block I of the re-laid x, whole rows
    intro cc j
    have hc := cc.isLt; have hj := j.isLt
    refine Eq.trans ?_ (xperm_apply m c _ cc j)
    show V m c main_v10 (((cfg0.win 0).blk t).view.emb (ix2 p (kcol cc j))) = _
    refine congrArg (V m c main_v10) (funext fun a => Fin.ext ?_)
    match a with
    | ⟨0, _⟩ => show win0_0.index t (0 : Fin 2) * 512 + 1 * p.val = win0_5.index t (0 : Fin 2) * 512 + p.val; omega
    | ⟨1, _⟩ => show win0_0.index t (1 : Fin 2) * 4096 + 1 * (1024 * cc.val + j.val) = 1024 * cc.val + j.val; omega
  · -- the packed-weight block: row q of block J, whole rows
    intro b
    have hb := b.isLt
    show V m c main_arg1 (((cfg0.win 1).blk t).view.emb (ix2 q b)) = _
    rw [V_main_arg1]
    refine congrArg (m ((c : Thread nD τ).loc main_arg1)) (funext fun a => Fin.ext ?_)
    match a with
    | ⟨0, _⟩ => show win0_1.index t (0 : Fin 2) * 256 + 1 * q.val = win0_5.index t (1 : Fin 2) * 256 + q.val; omega
    | ⟨1, _⟩ => show win0_1.index t (1 : Fin 2) * 512 + 1 * b.val = b.val; omega
  · -- the scale block: every plane, rows of block J
    intro cc g
    have hc := cc.isLt; have hg := g.isLt
    refine Eq.trans ?_ (scale_apply m c cc _ g)
    show V m c main_v3 (((cfg0.win 2).blk t).view.emb (ix3 cc q g)) = _
    refine congrArg (V m c main_v3) (funext fun a => Fin.ext ?_)
    match a with
    | ⟨0, _⟩ => show win0_2.index t (0 : Fin 3) * 4 + 1 * cc.val = cc.val; omega
    | ⟨1, _⟩ => show win0_2.index t (1 : Fin 3) * 256 + 1 * q.val = win0_5.index t (1 : Fin 2) * 256 + q.val; omega
    | ⟨2, _⟩ => show win0_2.index t (2 : Fin 3) * 16 + 1 * g.val = g.val; omega
  · -- the zero block, likewise
    intro cc g
    have hc := cc.isLt; have hg := g.isLt
    refine Eq.trans ?_ (zero_apply m c cc _ g)
    show V m c main_v5 (((cfg0.win 3).blk t).view.emb (ix3 cc q g)) = _
    refine congrArg (V m c main_v5) (funext fun a => Fin.ext ?_)
    match a with
    | ⟨0, _⟩ => show win0_3.index t (0 : Fin 3) * 4 + 1 * cc.val = cc.val; omega
    | ⟨1, _⟩ => show win0_3.index t (1 : Fin 3) * 256 + 1 * q.val = win0_5.index t (1 : Fin 2) * 256 + q.val; omega
    | ⟨2, _⟩ => show win0_3.index t (2 : Fin 3) * 16 + 1 * g.val = g.val; omega
  · -- the bias block: columns of block J of the one row
    refine Eq.trans ?_ (bias_apply m c _)
    show V m c main_v6 (((cfg0.win 4).blk t).view.emb (ix2 (⟨0, Nat.one_pos⟩ : Fin 1) q)) = _
    refine congrArg (V m c main_v6) (funext fun a => Fin.ext ?_)
    match a with
    | ⟨0, _⟩ => show win0_4.index t (0 : Fin 2) * 1 + 1 * 0 = 0; omega
    | ⟨1, _⟩ => show win0_4.index t (1 : Fin 2) * 256 + 1 * q.val = win0_5.index t (1 : Fin 2) * 256 + q.val; omega

/-- An index of the result is in point t's block iff each coordinate is in the block's range on its axis. -/
theorem mem_blk (t : Fin cfg0.N) (i : S8192x4096.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v11).slice (win0_5.rect t)).set ↔ _
  rw [View.set_slice_whole, Rect.mem_set_unit]
  exact Iff.rfl

/-- The 256 blocks tile the result: every index is in the block of the point that owns (row / 512, column / 256). -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := block_onto ⟨(i 0).val / 512, by omega⟩ ⟨(i 1).val / 256, by omega⟩
  have q0 : win0_5.index t (0 : Fin 2) = (i 0).val / 512 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- The result array after the run is the specification's function of the launch arrays. -/
theorem final (c : Dev nD) : (dats m 0 c).arrAt 5 cfg0.N = result m c :=
  (dats m 0 c).arrAt_eq_of_cover 5 (result m c) (fun t _ => flushed_eq m c t) cover

/-- The kernel's run: it terminates without fault, the result array ends at the specification's function of the launch
    arrays, and the arguments end unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.RefValue.lean ====
/-
  The reference computes the specification.

  Read operation by operation: the word W[n, k / 8] is shifted right (arithmetically) by k mod 8 and masked with 1, the
  [4096, 512, 8] bits are flattened to [4096, 4096] and converted, regrouped as [262144, 64] — entry (n, k) falls in
  group n·64 + k / 64 —, the group's zero subtracted and its scale multiplied, regrouped back and transposed; the
  product with x is the sum over k of x[r, k] times that weight at (n, k); the bias of column n is added.
-/
import proofs.«422245_j20504173871125_3_alg».proof.Proof.Gen.ReferenceIdeal.Read
import proofs.«422245_j20504173871125_3_alg».proof.Proof.Spec

set_option maxRecDepth 16384

noncomputable section

namespace Cert.ReferenceIdeal.RefValue

open Cert.ReferenceIdeal Cert.ReferenceIdeal.Read Cert.Dequant
open Idealize.ShloMosaic Idealize.ShloMosaic.ValueIdx

/-- The transposed dequantized weight at (k, n) is ŵ[n, k]. -/
theorem weight_apply (x1 : SW.Idx → BitVec 32) (x2 x3 : SG.Idx → EReal) (n k : Fin 4096) :
    val_main_v16 (F := Ideal) x1 x2 x3 (ix2 k n) = what x1 x2 x3 n k := by
  have hn := n.isLt; have hk := k.isLt
  have a1 : (n.val * 4096 + k.val) / 64 * 64 + (n.val * 4096 + k.val) % 64 = n.val * 4096 + k.val := by omega
  have a2 : (n.val * 4096 + k.val) / 4096 = n.val := by omega
  have a3 : (n.val * 4096 + k.val) % 4096 = k.val := by omega
  have a4 : (n.val * 4096 + k.val) / 8 % 512 = k.val / 8 := by omega
  have a5 : (n.val * 4096 + k.val) % 8 = k.val % 8 := by omega
  have a6 : (n.val * 4096 + k.val) / 64 = n.val * 64 + k.val / 64 := by omega
  rw [val_main_v16_apply, val_main_v15_apply, val_main_v14_apply, val_main_v12_apply, val_main_v13_apply, val_main_v11_apply,
    val_main_v10_apply, val_main_v9_apply, val_main_v8_apply, val_main_v7_apply, val_main_v5_apply, val_main_v6_apply,
    val_main_c_apply, val_main_v3_apply, val_main_v0_apply, val_main_v4_apply, val_main_v2_apply, val_main_v1_apply]
  have e_w : idx_main_v0 (idx_main_v3 (idx_main_v8 (idx_main_v10 (idx_main_v15 (idx_main_v16 (ix2 k n)))))) = wordOf n k := by
    funext a; apply Fin.ext
    match a with
    | ⟨0, _⟩ => show (((n.val * 4096 + k.val) / 64 * 64 + (n.val * 4096 + k.val) % 64) / 4096 * 4096 + ((n.val * 4096 + k.val) / 64 * 64 + (n.val * 4096 + k.val) % 64) % 4096) / 4096 = n.val; rw [a1, a2, a3, a2]
    | ⟨1, _⟩ => show (((n.val * 4096 + k.val) / 64 * 64 + (n.val * 4096 + k.val) % 64) / 4096 * 4096 + ((n.val * 4096 + k.val) / 64 * 64 + (n.val * 4096 + k.val) % 64) % 4096) / 8 % 512 = k.val / 8; rw [a1, a2, a3, a4]
  have e_b : (idx_main_v2 (idx_main_v4 (idx_main_v8 (idx_main_v10 (idx_main_v15 (idx_main_v16 (ix2 k n)))))) 0).val = k.val % 8 := by
    show (((n.val * 4096 + k.val) / 64 * 64 + (n.val * 4096 + k.val) % 64) / 4096 * 4096 + ((n.val * 4096 + k.val) / 64 * 64 + (n.val * 4096 + k.val) % 64) % 4096) % 8 = k.val % 8; rw [a1, a2, a3, a5]
  have e_z : idx_main_v11 (idx_main_v15 (idx_main_v16 (ix2 k n))) = grp n k := by
    funext a; apply Fin.ext
    match a with
    | ⟨0, _⟩ => show (n.val * 4096 + k.val) / 64 = n.val * 64 + k.val / 64; exact a6
    | ⟨1, _⟩ => rfl
  have e_s : idx_main_v13 (idx_main_v15 (idx_main_v16 (ix2 k n))) = grp n k := by
    funext a; apply Fin.ext
    match a with
    | ⟨0, _⟩ => show (n.val * 4096 + k.val) / 64 = n.val * 64 + k.val / 64; exact a6
    | ⟨1, _⟩ => rfl
  rw [e_w, e_b, e_z, e_s]
  rfl

/-- The reference's result is the specification's function of its arguments. -/
theorem result_eq (x0 : SX.Idx → EReal) (x1 : SW.Idx → BitVec 32) (x2 x3 : SG.Idx → EReal) (x4 : SB.Idx → EReal) :
    val_main_v20 (F := Ideal) x0 x1 x2 x3 x4 = G x0 x1 x2 x3 x4 := by
  funext i
  obtain ⟨r, n, rfl⟩ : ∃ (r : Fin 8192) (n : Fin 4096), i = ix2 r n := ⟨i 0, i 1, eq_ix2 i⟩
  rw [val_main_v20_apply, val_main_v17_apply, val_main_v19_apply, val_main_v18_apply]
  show (∑ k : Fin 4096, x0 (lidx_main_v17 (ix2 r n) k) * val_main_v16 (F := Ideal) x1 x2 x3 (ridx_main_v17 (ix2 r n) k))
      + x4 (idx_main_v18 (idx_main_v19 (ix2 r n))) = outAt x0 x1 x2 x3 x4 r n
  unfold outAt
  congr 1
  · refine Finset.sum_congr rfl fun k _ => ?_
    have el : lidx_main_v17 (ix2 r n) k = ix2 r k := funext fun a => match a with | ⟨0, _⟩ => rfl | ⟨1, _⟩ => rfl
    have er : ridx_main_v17 (ix2 r n) k = ix2 k n := funext fun a => match a with | ⟨0, _⟩ => rfl | ⟨1, _⟩ => rfl
    rw [el, er, weight_apply]
  · exact congrArg x4 (funext fun a => match a with | ⟨0, _⟩ => rfl)

end Cert.ReferenceIdeal.RefValue

end
-- ==== Proof.lean ====
/-
  A 1-bit quantized linear layer: the kernel against its reference, over the extended reals.

  Both programs compute, for every row r of x and output column n,
      out[r, n] = Σ_{k < 4096} x[r, k] · ŵ[n, k] + bias[n],
      ŵ[n, k] = (bit (k mod 8) of W[n, k / 8] − zero[n·64 + k / 64]) · scale[n·64 + k / 64].
  The reference unpacks the bits with an arithmetic shift, regroups the weight into rows of 64 for the affine step, and
  takes one matrix product.  The kernel permutes the columns of x once on the host, tiles the result into 16 × 16 blocks,
  and in each block accumulates four chunk products of 1024 columns, unpacking the bits plane by plane with a logical
  shift and spreading each group's scale and zero over its lanes; the bias is added after the last chunk.

  The two agree because (i) masked with 1, both shifts leave the same bit of any 32-bit word; (ii) the kernel's column
  order is a bijection of the 4096 columns, and a finite sum over a commutative monoid does not depend on the order or
  the grouping of its terms — so no finiteness of the inputs is needed; (iii) every change of float format is the identity
  at the ideal instance.  Spec.lean states the function and proves (i) and (ii); Body.lean, Layout.lean and Payload.lean
  read the kernel's body at one entry; Prefix.lean reads the host operations before the call; Entry.lean and Final.lean
  put the blocks together; RefValue.lean reads the reference.  The idealization rewrote nothing, so `preserves` is trivial;
  the three frames are the generated ones, the reference's its generated run with the result dropped.
-/
import proofs.«422245_j20504173871125_3_alg».proof.Defs
import proofs.«422245_j20504173871125_3_alg».proof.Proof.Gen.Kernel
import proofs.«422245_j20504173871125_3_alg».proof.Proof.Gen.Kernel.Frame
import proofs.«422245_j20504173871125_3_alg».proof.Proof.Gen.KernelIdeal
import proofs.«422245_j20504173871125_3_alg».proof.Proof.Gen.KernelIdeal.Frame
import proofs.«422245_j20504173871125_3_alg».proof.Proof.Gen.KernelIdeal.Value
import proofs.«422245_j20504173871125_3_alg».proof.Proof.Gen.ReferenceIdeal
import proofs.«422245_j20504173871125_3_alg».proof.Proof.Gen.ReferenceIdeal.Run
import proofs.«422245_j20504173871125_3_alg».proof.Proof.Gen.ReferenceIdeal.Read
import proofs.«422245_j20504173871125_3_alg».proof.Proof.Gen.Pre_finite_inputs
import proofs.«422245_j20504173871125_3_alg».proof.Proof.Final
import proofs.«422245_j20504173871125_3_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, both runs end with the result array at the specification's function of the
    (same) argument arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
